-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1280000 : Shape := ⟨1, ![1280000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S1280000 32) (main_arg2 : IVec S1280000 32) (main_arg3 : FVec F S64x64 .f32) (main_arg4 : FVec F S64 .f32) (main_arg5 : FVec F S64x64 .f32) (main_arg6 : FVec F S64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_v13 main_v16
-- ==== Kernel.lean ====
abbrev S100000x64 : Shape := ⟨2, ![100000, 64]⟩
abbrev S1280000 : Shape := ⟨1, ![1280000]⟩
abbrev S64x64 : Shape := ⟨2, ![64, 64]⟩
abbrev S64 : Shape := ⟨1, ![64]⟩
abbrev S_ : Shape := ⟨0, ![]⟩
abbrev S1280000x1 : Shape := ⟨2, ![1280000, 1]⟩
abbrev S1280000x64 : Shape := ⟨2, ![1280000, 64]⟩
abbrev S1x64 : Shape := ⟨2, ![1, 64]⟩
abbrev S10000x64 : Shape := ⟨2, ![10000, 64]⟩

abbrev nBuf : Space → Nat
  | .hbm => 27
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S1280000, .i32⟩
  | .hbm, ⟨2, _⟩ => ⟨S1280000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S_, .i32⟩
  | .hbm, ⟨9, _⟩ => ⟨S1280000, .i32⟩
  | .hbm, ⟨10, _⟩ => ⟨S1280000, .i1⟩
  | .hbm, ⟨11, _⟩ => ⟨S_, .i32⟩
  | .hbm, ⟨12, _⟩ => ⟨S1280000, .i32⟩
  | .hbm, ⟨13, _⟩ => ⟨S1280000, .i32⟩
  | .hbm, ⟨14, _⟩ => ⟨S1280000, .i32⟩
  | .hbm, ⟨15, _⟩ => ⟨S1280000x1, .i32⟩
  | .hbm, ⟨16, _⟩ => ⟨S1280000x64, .f32⟩
  | .hbm, ⟨17, _⟩ => ⟨S_, .f32⟩
  | .hbm, ⟨18, _⟩ => ⟨S100000x64, .f32⟩
  | .hbm, ⟨19, _⟩ => ⟨S1280000x1, .i32⟩
  | .hbm, ⟨20, _⟩ => ⟨S100000x64, .f32⟩
  | .hbm, ⟨21, _⟩ => ⟨S64x64, .f32⟩
  | .hbm, ⟨22, _⟩ => ⟨S64x64, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v9) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1280000 : Shape := ⟨1, ![1280000]⟩
abbrev S64x64 : Shape := ⟨2, ![64, 64]⟩
abbrev S64 : Shape := ⟨1, ![64]⟩
abbrev S_ : Shape := ⟨0, ![]⟩
abbrev S1280000x1 : Shape := ⟨2, ![1280000, 1]⟩
abbrev S1280000x64 : Shape := ⟨2, ![1280000, 64]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1280000, .i32⟩
  | .hbm, ⟨2, _⟩ => ⟨S1280000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S_, .i32⟩
  | .hbm, ⟨9, _⟩ => ⟨S1280000, .i32⟩
  | .hbm, ⟨10, _⟩ => ⟨S1280000, .i1⟩
  | .hbm, ⟨11, _⟩ => ⟨S_, .i32⟩
  | .hbm, ⟨12, _⟩ => ⟨S1280000, .i32⟩
  | .hbm, ⟨13, _⟩ => ⟨S1280000, .i32⟩
  | .hbm, ⟨14, _⟩ => ⟨S1280000, .i32⟩
  | .hbm, ⟨15, _⟩ => ⟨S1280000x1, .i32⟩
  | .hbm, ⟨16, _⟩ => ⟨S1280000x64, .f32⟩
  | .hbm, ⟨17, _⟩ => ⟨S_, .f32⟩
  | .hbm, ⟨18, _⟩ => ⟨S100000x64, .f32⟩
  | .hbm, ⟨19, _⟩ => ⟨S1280000x1, .i32⟩
  | .hbm, ⟨20, _⟩ => ⟨S100000x64, .f32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S100000x64_S64x64_S100000x64_1_1_0_0_n_n_wf : DotDims.WF S100000x64 S64x64 S100000x64 [1] [1] [0] [0] [] []

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S100000x64_S64x64_S100000x64_1_1_0_0_n_n : DotDims S100000x64 S64x64 S100000x64 where
  lhsContracting := [1]
  rhsContracting := [1]
  lhsNonContracting := [0]
  rhsNonContracting := [0]
  lhsBatch := []
  rhsBatch := []
  wf := dot_S100000x64_S64x64_S100000x64_1_1_0_0_n_n_wf

class Facts : Prop extends Facts₀ where

variable [Facts]
-- ==== Proof.LayerSpec.lean ====
/-
  The graph-convolution layer as ONE function of its arrays, index by index, over the extended reals.

  With `h` the aggregated neighbour features (the scatter-add of the gathered rows of `x`), the layer's entry at
  node `n` and output feature `o` is

      (Σ_k h[n,k] · W_lin[o,k])  +  (Σ_k x[n,k] · W_self[o,k])  +  ((b_lin[o] + b_self[o]) + bias[o]).

  The reference adds the three bias rows one at a time, between and after the two products; the kernel adds their
  sum once at the end. Addition on the extended reals is commutative and associative (also at the infinities), so the
  two groupings agree: `regroup`.
-/
import Idealize.ShloMosaic.PureOps.Ideal
import Idealize.ShloMosaic.Lib.ValueIdx

noncomputable section

namespace Cert.GraphLayer

open Idealize.ShloMosaic Idealize.ShloMosaic.ValueIdx

/-- Node features, `[100000, 64]`. -/
abbrev Nodes : Shape := ⟨2, ![100000, 64]⟩
/-- A weight matrix, `[64, 64]` (output feature, input feature). -/
abbrev Weights : Shape := ⟨2, ![64, 64]⟩
/-- A bias row, `[64]`. -/
abbrev Bias : Shape := ⟨1, ![64]⟩

/-- The layer's output from the aggregated features `h`, the node features `x`, the two weight matrices and the
    three bias rows: two row-by-row products against the weights' rows, plus the summed biases. -/
def layerOut (h x : FVec Ideal Nodes .f32) (Wl Ws : FVec Ideal Weights .f32) (bl bs b : FVec Ideal Bias .f32) :
    FVec Ideal Nodes .f32 := fun i =>
  (∑ k : Fin 64, h (ix2 (i 0) k) * Wl (ix2 (i 1) k)) + (∑ k : Fin 64, x (ix2 (i 0) k) * Ws (ix2 (i 1) k))
    + ((bl (ix1 (i 1)) + bs (ix1 (i 1))) + b (ix1 (i 1)))

/-- The reference's grouping of the five summands is the kernel's: only commutativity and associativity of `+`. -/
theorem regroup (A B p q r : EReal) : (((A + p) + B) + q) + r = A + B + ((p + q) + r) := by
  abel

end Cert.GraphLayer

end
-- ==== Proof.KernelBody.lean ====
/-
  What the kernel body stores for one block of 10000 nodes, read at a node `p` of the block and an output feature `q`:

      (Σ_k h[p,k] · A[k,q])  +  (Σ_k x[p,k] · B[k,q])  +  c[0,q],

  where `h`, `x` are the block's rows of the aggregated and the node features, `A`, `B` the two (transposed) weight
  matrices and `c` the summed bias row. At the extended reals the narrowing to bf16 before each product is the identity,
  each product into a zero accumulator is the plain sum over the 64 input features, and the broadcast of the bias row
  reads its one row.
-/
import proofs.«102328_j17162689314845_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx

/-- The left operand of a block product is read at the result's node row, -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

/-- and at the contracted input feature; -/
theorem lhs_feature (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

/-- the right operand at the contracted input feature -/
theorem rhs_feature (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

/-- and at the result's output feature. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block product into the zero accumulator, at node `p` and output feature `q`: the sum over the input features. -/
theorem product_entry {φ₁ φ₂ : FTy} (l : FVec Ideal S10000x64 φ₁) (r : FVec Ideal S64x64 φ₂) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  show FloatOps.matmul _ _ _ _ _ _ = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_feature _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_feature _ _).trans hk
    | ⟨1, _⟩ => exact rhs_col _ _)
  rw [el, er]

/-- The stored value at node `p` of the block and output feature `q`. -/
theorem stored_entry (v0 v3 : Vec Ideal S10000x64 .f32) (v5 v8 : Vec Ideal S64x64 .f32) (v14 : Vec Ideal S1x64 .f32)
    (p : Fin 10000) (q : Fin 64) :
    k0_pay1 (F := Ideal) v0 v3 v5 v8 v14 (ix2 p q)
      = (∑ k : Fin 64, v0 (ix2 p k) * v5 (ix2 k q)) + (∑ k : Fin 64, v3 (ix2 p k) * v8 (ix2 k q)) + v14 (ix2 0 q) := by
  unfold k0_pay1
  simp only [shapeCast_self]
  show (matmul _ none _ _ _ (ix2 p q) + matmul _ none _ _ _ (ix2 p q)) + broadcastTo _ _ _ (ix2 p q) = _
  rw [product_entry, product_entry,
    broadcastTo_apply v14 broadcasts_S1x64_S10000x64 (ix2 p q) (ix2 0 q) (fun a => by
      match a with
      | ⟨0, _⟩ => rfl
      | ⟨1, _⟩ => rfl)]
  rfl

end Cert.KernelIdeal.BodyValue

end
-- ==== Proof.HostPrefix.lean ====
/-
  What the kernel's program computes on the host before its one launch, as the launch finds it:

  * the aggregated neighbour features — the rows of `x` gathered at the (wrapped) source indices and scatter-added at the
    destination indices into a zero array: `aggregated`, the very term the reference computes, never opened here;
  * the two weight matrices transposed, so entry `(k, o)` of each is entry `(o, k)` of the argument;
  * the three bias rows summed, `(b_lin + b_self) + bias`, laid out as one row `[1, 64]`.
-/
import proofs.«102328_j17162689314845_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostPrefix

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-- The aggregated neighbour features of node features `x` along edges `src → dst`: a negative source index wrapped by
    the number of nodes, the source rows gathered, and the rows scatter-added at the destinations into zeros. -/
def aggregated (x : FVec F S100000x64 .f32) (src dst : IVec S1280000 32) : FVec F S100000x64 .f32 :=
  Host.scatterAdd scatter_S100000x64_S1280000x1_S1280000x64_1_0_0_1
    (broadcastInDim S100000x64 ![] bcast_S_S100000x64 (constant (F := F) S_ .f32 0x00000000#32))
    (broadcastInDim S1280000x1 ![0] bcast_S1280000_S1280000x1_0 dst)
    (Host.gather gather_S100000x64_S1280000x1_S1280000x64_1_0_n_n_0_1_164 x
      (broadcastInDim S1280000x1 ![0] bcast_S1280000_S1280000x1_0
        (select (cmpi .slt src (broadcastInDim S1280000 ![] bcast_S_S1280000 (constantI S_ 32 0#32)))
          (addi src (broadcastInDim S1280000 ![] bcast_S_S1280000 (constantI S_ 32 100000#32))) src)))

variable (m : (ℓ : Loc nD τ sig) → Buf (Elt F) ℓ)

/-- The launch finds the aggregated features of the arguments in the first operand's array. -/
theorem V_aggregated (c : Dev nD) :
    (V m c main_v9 : S100000x64.Idx → Elt F .f32)
      = aggregated (m ((c : Thread nD τ).loc main_arg0)) (m ((c : Thread nD τ).loc main_arg1)) (m ((c : Thread nD τ).loc main_arg2)) := by
  dsimp only [Gen.V, Gen.hostOps0]
  after_results <;> rfl

/-- It finds `W_lin` transposed, -/
theorem V_linT (c : Dev nD) :
    (V m c main_v10 : S64x64.Idx → Elt F .f32)
      = transpose S64x64 [1, 0] (m ((c : Thread nD τ).loc main_arg3)) transposes_S64x64_S64x64_1_0 := by
  dsimp only [Gen.V, Gen.hostOps0]
  after_results <;> rfl

/-- `W_self` transposed, -/
theorem V_selfT (c : Dev nD) :
    (V m c main_v11 : S64x64.Idx → Elt F .f32)
      = transpose S64x64 [1, 0] (m ((c : Thread nD τ).loc main_arg5)) transposes_S64x64_S64x64_1_0 := by
  dsimp only [Gen.V, Gen.hostOps0]
  after_results <;> rfl

/-- and the summed bias rows as one row. -/
theorem V_biasRow (c : Dev nD) :
    (V m c main_v14 : S1x64.Idx → Elt F .f32)
      = shapeCast S1x64 (addf (addf (m ((c : Thread nD τ).loc main_arg4)) (m ((c : Thread nD τ).loc main_arg6))) (m ((c : Thread nD τ).loc main_arg7))) shapeCasts_S64_S1x64 := by
  dsimp only [Gen.V, Gen.hostOps0]
  after_results <;> rfl

/-- A transposed weight matrix at (input feature `k`, output feature `o`) is the matrix at `(o, k)`. -/
theorem transposed_entry {α : Type} (W : S64x64.Idx → α) (k o : Fin 64) :
    transpose S64x64 [1, 0] W transposes_S64x64_S64x64_1_0 (ix2 k o) = W (ix2 o k) :=
  transpose_apply [1, 0] W transposes_S64x64_S64x64_1_0 (ix2 k o) (ix2 o k) (fun b => by
    match b with
    | ⟨0, _⟩ => rfl
    | ⟨1, _⟩ => rfl)

/-- The bias row `[1, 64]` at output feature `o` is the row `[64]` at `o`. -/
theorem biasRow_entry {α : Type} (v : S64.Idx → α) (o : Fin 64) :
    shapeCast S1x64 v shapeCasts_S64_S1x64 (ix2 0 o) = v (ix1 o) :=
  shapeCast_apply v shapeCasts_S64_S1x64 (ix2 0 o) (ix1 o) (by
    rw [Shape.rowMajor_val_one, Shape.rowMajor_val_two]
    show o.val = 0 * 64 + o.val
    omega)

end Cert.KernelIdeal.HostPrefix

end
-- ==== Proof.KernelLayer.lean ====
/-
  The kernel's result array is the layer function of `LayerSpec` of its arguments.

  The launch walks ten blocks of 10000 nodes. At block `t` the body reads rows `10000·t … 10000·t + 9999` of the
  aggregated features and of the node features, the two transposed weight matrices and the summed bias row whole, and
  writes rows `10000·t …` of the result. Entry `(p, q)` of what it writes is `KernelBody`'s sum, whose factors are, through
  `HostPrefix`, the aggregated features and the arguments at node `10000·t + p` and output feature `q`: entry
  `(10000·t + p, q)` of `layerOut`. The ten blocks tile the 100000 nodes (node `n` lies in block `n / 10000`), so the
  whole array ends at `layerOut`.
-/
import proofs.«102328_j17162689314845_1_alg».proof.Proof.Gen.KernelIdeal.Value
import proofs.«102328_j17162689314845_1_alg».proof.Proof.LayerSpec
import proofs.«102328_j17162689314845_1_alg».proof.Proof.KernelBody
import proofs.«102328_j17162689314845_1_alg».proof.Proof.HostPrefix

noncomputable section

namespace Cert.KernelIdeal.LayerValue

open Cert.KernelIdeal Cert.KernelIdeal.Gen Cert.KernelIdeal.HostPrefix Cert.KernelIdeal.BodyValue Cert.GraphLayer
open Idealize.ShloMosaic Idealize.ShloMosaic.TcCoe Idealize.SL.Sem Idealize.ShloMosaic.ValueIdx
open Idealize.ShloMosaic.Pipeline (Dat)

/-- The stored entry is the layer function's, once each factor the body loads is known to be the array entry the
    layer function reads: rows `p` of the two streamed blocks are node `n`'s rows, the transposed weights at `(k, q)`
    are the weights at `(q, k)`, and the bias row at `q` is the three biases' sum. -/
theorem stored_eq_layer (h x : FVec Ideal S100000x64 .f32) (Wl Ws : FVec Ideal S64x64 .f32) (bl bs b : FVec Ideal S64 .f32)
    (v0 v3 : Vec Ideal S10000x64 .f32) (v5 v8 : Vec Ideal S64x64 .f32) (v14 : Vec Ideal S1x64 .f32)
    (p : Fin 10000) (q : Fin 64) (n : Fin 100000)
    (e0 : ∀ k : Fin 64, v0 (ix2 p k) = h (ix2 n k)) (e1 : ∀ k : Fin 64, v3 (ix2 p k) = x (ix2 n k))
    (e2 : ∀ k : Fin 64, v5 (ix2 k q) = Wl (ix2 q k)) (e3 : ∀ k : Fin 64, v8 (ix2 k q) = Ws (ix2 q k))
    (e4 : v14 (ix2 0 q) = (bl (ix1 q) + bs (ix1 q)) + b (ix1 q)) :
    k0_pay1 (F := Ideal) v0 v3 v5 v8 v14 (ix2 p q) = layerOut h x Wl Ws bl bs b (ix2 n q) := by
  rw [stored_entry]
  show _ = (∑ k : Fin 64, h (ix2 n k) * Wl (ix2 q k)) + (∑ k : Fin 64, x (ix2 n k) * Ws (ix2 q k))
    + ((bl (ix1 q) + bs (ix1 q)) + b (ix1 q))
  simp only [e0, e1, e2, e3, e4]

variable (m : (ℓ : Loc nD τ sig) → Buf (Elt Ideal) ℓ) (ρ : Dev nD → PrngReg)

/-- The arguments as launched, at their literal types: node features, edge sources and destinations, -/
abbrev features (c : Dev nD) : FVec Ideal S100000x64 .f32 := m ((c : Thread nD τ).loc main_arg0)
abbrev sources (c : Dev nD) : IVec S1280000 32 := m ((c : Thread nD τ).loc main_arg1)
abbrev destinations (c : Dev nD) : IVec S1280000 32 := m ((c : Thread nD τ).loc main_arg2)
/-- the two weight matrices and the three bias rows. -/
abbrev wLin (c : Dev nD) : FVec Ideal S64x64 .f32 := m ((c : Thread nD τ).loc main_arg3)
abbrev bLin (c : Dev nD) : FVec Ideal S64 .f32 := m ((c : Thread nD τ).loc main_arg4)
abbrev wSelf (c : Dev nD) : FVec Ideal S64x64 .f32 := m ((c : Thread nD τ).loc main_arg5)
abbrev bSelf (c : Dev nD) : FVec Ideal S64 .f32 := m ((c : Thread nD τ).loc main_arg6)
abbrev bias (c : Dev nD) : FVec Ideal S64 .f32 := m ((c : Thread nD τ).loc main_arg7)

/-- What the result array holds after the run: the layer function of the aggregated features and the arguments. -/
def result (c : Dev nD) : Buf (Elt Ideal) ((c : Thread nD τ).loc main_v15) :=
  layerOut (aggregated (F := Ideal) (features m c) (sources m c) (destinations m c)) (features m c) (wLin m c) (wSelf m c)
    (bLin m c) (bSelf m c) (bias m c)

theorem result_eq (c : Dev nD) :
    result m c = layerOut (aggregated (F := Ideal) (features m c) (sources m c) (destinations m c)) (features m c) (wLin m c) (wSelf m c)
      (bLin m c) (bSelf m c) (bias m c) := rfl

/-- The five input blocks at grid point `t`, at their literal types. -/
abbrev aggregatedBlk (c : Dev nD) (t : Fin cfg0.N) : Vec Ideal S10000x64 .f32 := iblk m c 0 t
abbrev featuresBlk (c : Dev nD) (t : Fin cfg0.N) : Vec Ideal S10000x64 .f32 := iblk m c 1 t
abbrev linBlk (c : Dev nD) (t : Fin cfg0.N) : Vec Ideal S64x64 .f32 := iblk m c 2 t
abbrev selfBlk (c : Dev nD) (t : Fin cfg0.N) : Vec Ideal S64x64 .f32 := iblk m c 3 t
abbrev biasBlk (c : Dev nD) (t : Fin cfg0.N) : Vec Ideal S1x64 .f32 := iblk m c 4 t

theorem origin : (![0, 0] : Fin 2 → Nat) = fun _ => 0 := funext fun a => by fin_cases a <;> rfl

/-- The block indices over the ten points: the two streamed inputs and the output are at block row `t`, the weights and
    the bias row at their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Reading ANY node array through the first window's block `t`: row `p` of the block is node `10000·t + p`. -/
theorem read_rows_first (A : FVec Ideal S100000x64 .f32) (t : Fin cfg0.N) (p : Fin 10000) (k : Fin 64) (n : Fin 100000)
    (hn : n.val = t.val * 10000 + p.val) :
    ((cfg0.win 0).blk t).view.read (Elt Ideal) A (ix2 p k) = A (ix2 n k) := by
  show A (((cfg0.win 0).blk t).view.emb (ix2 p k)) = A (ix2 n k)
  refine congrArg A (funext fun a => Fin.ext ?_)
  obtain ⟨e0, e1, -⟩ := block_indices t
  match a with
  | ⟨0, _⟩ => show win0_0.index t (0 : Fin 2) * 10000 + 1 * p.val = n.val; omega
  | ⟨1, _⟩ => show win0_0.index t (1 : Fin 2) * 64 + 1 * k.val = k.val; omega

/-- The same through the second window's block `t`. -/
theorem read_rows_second (A : FVec Ideal S100000x64 .f32) (t : Fin cfg0.N) (p : Fin 10000) (k : Fin 64) (n : Fin 100000)
    (hn : n.val = t.val * 10000 + p.val) :
    ((cfg0.win 1).blk t).view.read (Elt Ideal) A (ix2 p k) = A (ix2 n k) := by
  show A (((cfg0.win 1).blk t).view.emb (ix2 p k)) = A (ix2 n k)
  refine congrArg A (funext fun a => Fin.ext ?_)
  obtain ⟨-, -, e0, e1, -⟩ := block_indices t
  match a with
  | ⟨0, _⟩ => show win0_1.index t (0 : Fin 2) * 10000 + 1 * p.val = n.val; omega
  | ⟨1, _⟩ => show win0_1.index t (1 : Fin 2) * 64 + 1 * k.val = k.val; omega

/-- The third and fourth windows' one block is the whole `[64, 64]` array, -/
theorem read_whole_third (A : FVec Ideal S64x64 .f32) (t : Fin cfg0.N) (i : S64x64.Idx) :
    ((cfg0.win 2).blk t).view.read (Elt Ideal) A i = A i := by
  show A (((cfg0.win 2).blk t).view.emb i) = A i
  refine congrArg A (funext fun a => Fin.ext ?_)
  obtain ⟨-, -, -, -, e0, e1, -⟩ := block_indices t
  match a with
  | ⟨0, _⟩ => show win0_2.index t (0 : Fin 2) * 64 + 1 * (i 0).val = (i 0).val; omega
  | ⟨1, _⟩ => show win0_2.index t (1 : Fin 2) * 64 + 1 * (i 1).val = (i 1).val; omega

theorem read_whole_fourth (A : FVec Ideal S64x64 .f32) (t : Fin cfg0.N) (i : S64x64.Idx) :
    ((cfg0.win 3).blk t).view.read (Elt Ideal) A i = A i := by
  show A (((cfg0.win 3).blk t).view.emb i) = A i
  refine congrArg A (funext fun a => Fin.ext ?_)
  obtain ⟨-, -, -, -, -, -, e0, e1, -⟩ := block_indices t
  match a with
  | ⟨0, _⟩ => show win0_3.index t (0 : Fin 2) * 64 + 1 * (i 0).val = (i 0).val; omega
  | ⟨1, _⟩ => show win0_3.index t (1 : Fin 2) * 64 + 1 * (i 1).val = (i 1).val; omega

/-- and the fifth window's one block the whole `[1, 64]` row. -/
theorem read_whole_fifth (A : FVec Ideal S1x64 .f32) (t : Fin cfg0.N) (i : S1x64.Idx) :
    ((cfg0.win 4).blk t).view.read (Elt Ideal) A i = A i := by
  show A (((cfg0.win 4).blk t).view.emb i) = A i
  refine congrArg A (funext fun a => Fin.ext ?_)
  obtain ⟨-, -, -, -, -, -, -, -, e0, e1, -⟩ := block_indices t
  match a with
  | ⟨0, _⟩ => show win0_4.index t (0 : Fin 2) * 1 + 1 * (i 0).val = (i 0).val; omega
  | ⟨1, _⟩ => show win0_4.index t (1 : Fin 2) * 64 + 1 * (i 1).val = (i 1).val; omega

/-- Block `t` of the aggregated features, at row `p`, is the array at node `10000·t + p`. -/
theorem aggregated_block (c : Dev nD) (t : Fin cfg0.N) (p : Fin 10000) (k : Fin 64) (n : Fin 100000)
    (hn : n.val = t.val * 10000 + p.val) :
    aggregatedBlk m c t (ix2 p k) = aggregated (F := Ideal) (features m c) (sources m c) (destinations m c) (ix2 n k) := by
  show iblk m c 0 t (ix2 p k) = _
  unfold iblk
  exact (read_rows_first (V m c main_v9) t p k n hn).trans (congrFun (V_aggregated m c) (ix2 n k))

/-- Block `t` of the node features likewise. -/
theorem features_block (c : Dev nD) (t : Fin cfg0.N) (p : Fin 10000) (k : Fin 64) (n : Fin 100000)
    (hn : n.val = t.val * 10000 + p.val) :
    featuresBlk m c t (ix2 p k) = features m c (ix2 n k) := by
  show iblk m c 1 t (ix2 p k) = _
  unfold iblk
  exact (read_rows_second (V m c main_arg0) t p k n hn).trans (congrFun (V_main_arg0 m c) (ix2 n k))

/-- The one block of the transposed `W_lin` at (input feature `k`, output feature `o`) is `W_lin` at `(o, k)`. -/
theorem lin_block (c : Dev nD) (t : Fin cfg0.N) (k o : Fin 64) :
    linBlk m c t (ix2 k o) = wLin m c (ix2 o k) := by
  show iblk m c 2 t (ix2 k o) = _
  unfold iblk
  exact ((read_whole_third (V m c main_v10) t (ix2 k o)).trans (congrFun (V_linT m c) (ix2 k o))).trans
    (transposed_entry (wLin m c) k o)

/-- The one block of the transposed `W_self` likewise. -/
theorem self_block (c : Dev nD) (t : Fin cfg0.N) (k o : Fin 64) :
    selfBlk m c t (ix2 k o) = wSelf m c (ix2 o k) := by
  show iblk m c 3 t (ix2 k o) = _
  unfold iblk
  exact ((read_whole_fourth (V m c main_v11) t (ix2 k o)).trans (congrFun (V_selfT m c) (ix2 k o))).trans
    (transposed_entry (wSelf m c) k o)

/-- The one block of the bias row at output feature `o` is the sum of the three bias rows there. -/
theorem bias_block (c : Dev nD) (t : Fin cfg0.N) (o : Fin 64) :
    biasBlk m c t (ix2 0 o) = (bLin m c (ix1 o) + bSelf m c (ix1 o)) + bias m c (ix1 o) := by
  show iblk m c 4 t (ix2 0 o) = _
  unfold iblk
  exact ((read_whole_fifth (V m c main_v14) t (ix2 0 o)).trans (congrFun (V_biasRow m c) (ix2 0 o))).trans
    (biasRow_entry (addf (addf (bLin m c) (bSelf m c)) (bias m c)) o)

/-- A block's worth of values `X` is what reading ANY node array `R` through the output window's block `t` gives, as
    soon as row `p` of `X` is node `10000·t + p` of `R`. -/
theorem block_eq_read (R : FVec Ideal S100000x64 .f32) (X : Vec Ideal S10000x64 .f32) (t : Fin cfg0.N)
    (h : ∀ (p : Fin 10000) (q : Fin 64) (hlt : t.val * 10000 + p.val < 100000), X (ix2 p q) = R (ix2 ⟨t.val * 10000 + p.val, hlt⟩ q)) :
    (cfg0.win 5).cut (grid0.coords t) X = ((cfg0.win 5).blk t).view.read (Elt Ideal) R := by
  show (fun y : S10000x64.Idx => X y) = fun y : S10000x64.Idx => R (((cfg0.win 5).blk t).view.emb y)
  funext y
  obtain ⟨p, q, rfl⟩ : ∃ (p : Fin 10000) (q : Fin 64), y = ix2 p q := ⟨y 0, y 1, eq_ix2 y⟩
  obtain ⟨-, -, -, -, -, -, -, -, -, -, e0, e1⟩ := block_indices t
  have ht : t.val < 10 := Nat.lt_of_lt_of_eq t.isLt (show cfg0.N = 10 from N_0)
  rw [h p q (by omega)]
  refine congrArg R (funext fun a => Fin.ext ?_)
  match a with
  | ⟨0, _⟩ => show t.val * 10000 + p.val = win0_5.index t (0 : Fin 2) * 10000 + 1 * p.val; omega
  | ⟨1, _⟩ => show q.val = win0_5.index t (1 : Fin 2) * 64 + 1 * q.val; omega

/-- WHAT BLOCK `t` WRITES BACK is block `t` of the layer function. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero origin]
  simp only [View.ld_unit_zero (S := S10000x64) origin, View.ld_unit_zero (S := S64x64) origin, View.ld_unit_zero (S := S1x64) origin]
  refine block_eq_read (result m c)
    (k0_pay1 (F := Ideal) (aggregatedBlk m c t) (featuresBlk m c t) (linBlk m c t) (selfBlk m c t) (biasBlk m c t)) t
    (fun p q hlt => ?_)
  rw [result_eq]
  exact stored_eq_layer (aggregated (F := Ideal) (features m c) (sources m c) (destinations m c)) (features m c) (wLin m c) (wSelf m c)
    (bLin m c) (bSelf m c) (bias m c) (aggregatedBlk m c t) (featuresBlk m c t) (linBlk m c t) (selfBlk m c t) (biasBlk m c t) p q
    ⟨t.val * 10000 + p.val, hlt⟩
    (fun k => aggregated_block m c t p k _ rfl) (fun k => features_block m c t p k _ rfl)
    (fun k => lin_block m c t k q) (fun k => self_block m c t k q) (bias_block m c t q)

/-- An index of the array is in block `t` iff each coordinate is in the block's range on its axis. -/
theorem mem_block (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v15).slice (win0_5.rect t)).set ↔ _
  rw [View.set_slice_whole, Rect.mem_set_unit]
  exact Iff.rfl

/-- The ten blocks tile the array: node `n` is in block `n / 10000`. -/
theorem tiled (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  have hlt : (i 0).val / 10000 < cfg0.N := by rw [hN]; omega
  obtain ⟨-, -, -, -, -, -, -, -, -, -, e0, e1⟩ := block_indices ⟨(i 0).val / 10000, hlt⟩
  have e0' : win0_5.index ⟨(i 0).val / 10000, hlt⟩ (0 : Fin 2) = (i 0).val / 10000 := e0
  refine ⟨⟨(i 0).val / 10000, hlt⟩, flush0_5 _, ?_⟩
  rw [mem_block]
  intro a
  match a with
  | ⟨0, _⟩ => show win0_5.index ⟨(i 0).val / 10000, hlt⟩ (0 : Fin 2) * 10000 ≤ (i 0).val ∧ (i 0).val < win0_5.index ⟨(i 0).val / 10000, hlt⟩ (0 : Fin 2) * 10000 + 10000; omega
  | ⟨1, _⟩ => show win0_5.index ⟨(i 0).val / 10000, hlt⟩ (1 : Fin 2) * 64 ≤ (i 1).val ∧ (i 1).val < win0_5.index ⟨(i 0).val / 10000, hlt⟩ (1 : Fin 2) * 64 + 64; omega

/-- THE ARRAY after the run is the layer function of the arguments. -/
theorem final (c : Dev nD) : (dats m 0 c).arrAt 5 cfg0.N = result m c :=
  (dats m 0 c).arrAt_eq_of_cover 5 (result m c) (fun t _ => flushed_eq m c t) tiled

/-- The kernel's run: the result array at the layer function, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.LayerValue

end
-- ==== Proof.ReferenceLayer.lean ====
/-
  The reference computes the layer function of `LayerSpec`: read at an index, its last sum is
  `(((h·W_linᵀ + b_lin) + x·W_selfᵀ) + b_self) + bias`, each product a sum over the 64 input features and each bias row
  broadcast over the nodes; regrouping the five summands gives `layerOut`. The aggregated features `h` (the scatter-add
  of the gathered rows) stay the reference's own term and are never opened.
-/
import proofs.«102328_j17162689314845_1_alg».proof.Proof.Gen.ReferenceIdeal.Read
import proofs.«102328_j17162689314845_1_alg».proof.Proof.LayerSpec

noncomputable section

namespace Cert.ReferenceIdeal.RefValue

open Cert.ReferenceIdeal Cert.ReferenceIdeal.Gen Cert.ReferenceIdeal.Read Cert.GraphLayer
open Idealize.ShloMosaic Idealize.ShloMosaic.ValueIdx

/-- The operand indices of both products: node row `i 0` at feature `k`. -/
theorem lidx_eq (i : S100000x64.Idx) (k : Fin 64) : lidx_main_v10 i k = ix2 (i 0) k :=
  funext fun a => by match a with | ⟨0, _⟩ => rfl | ⟨1, _⟩ => rfl

/-- and weight row `i 1` (the output feature) at feature `k`. -/
theorem ridx_eq (i : S100000x64.Idx) (k : Fin 64) : ridx_main_v10 i k = ix2 (i 1) k :=
  funext fun a => by match a with | ⟨0, _⟩ => rfl | ⟨1, _⟩ => rfl

/-- The same two index equations for the product of the node features with `W_self`. -/
theorem lidx_self_eq (i : S100000x64.Idx) (k : Fin 64) : lidx_main_v14 i k = ix2 (i 0) k :=
  funext fun a => by match a with | ⟨0, _⟩ => rfl | ⟨1, _⟩ => rfl

theorem ridx_self_eq (i : S100000x64.Idx) (k : Fin 64) : ridx_main_v14 i k = ix2 (i 1) k :=
  funext fun a => by match a with | ⟨0, _⟩ => rfl | ⟨1, _⟩ => rfl

/-- A bias row broadcast to `[1, 64]` and then over the nodes is read at the output feature: `b_lin`, -/
theorem bias_lin_idx_eq (i : S100000x64.Idx) : idx_main_v11 (idx_main_v12 i) = ix1 (i 1) :=
  funext fun a => by match a with | ⟨0, _⟩ => rfl

/-- `b_self` -/
theorem bias_self_idx_eq (i : S100000x64.Idx) : idx_main_v16 (idx_main_v17 i) = ix1 (i 1) :=
  funext fun a => by match a with | ⟨0, _⟩ => rfl

/-- and `bias`. -/
theorem bias_idx_eq (i : S100000x64.Idx) : idx_main_v19 (idx_main_v20 i) = ix1 (i 1) :=
  funext fun a => by match a with | ⟨0, _⟩ => rfl

/-- The reference's result is the layer function of its own aggregated features and the arguments. -/
theorem reference_eq (x0 : FVec Ideal S100000x64 .f32) (x1 x2 : IVec S1280000 32) (x3 : FVec Ideal S64x64 .f32)
    (x4 : FVec Ideal S64 .f32) (x5 : FVec Ideal S64x64 .f32) (x6 x7 : FVec Ideal S64 .f32) :
    val_main_v21 (F := Ideal) x0 x1 x2 x3 x4 x5 x6 x7
      = layerOut (val_main_v9 (F := Ideal) x0 x1 x2) x0 x3 x5 x4 x6 x7 := by
  funext i
  rw [val_main_v21_apply, val_main_v18_apply, val_main_v15_apply, val_main_v13_apply, val_main_v10_apply,
    val_main_v14_apply, val_main_v12_apply, val_main_v11_apply, val_main_v17_apply, val_main_v16_apply,
    val_main_v20_apply, val_main_v19_apply]
  show ((((∑ k : Fin 64, _ * _) + _) + (∑ k : Fin 64, _ * _)) + _) + _ = _
  rw [regroup]
  unfold layerOut
  simp only [lidx_eq, ridx_eq, lidx_self_eq, ridx_self_eq, bias_lin_idx_eq, bias_self_idx_eq, bias_idx_eq]
  rfl

end Cert.ReferenceIdeal.RefValue

end
-- ==== Proof.lean ====
/-
  The proof of `Cert.Claim`: a graph-convolution layer, `out = h·W_linᵀ + x·W_selfᵀ + (b_lin + b_self + bias)` with `h` the
  scatter-add over the edges of the gathered rows of `x`, computed by a kernel over ten blocks of nodes against the
  reference's `einsum`s and one-at-a-time bias additions.

  Both programs compute `h` on the host by the same operations, so it is one term on both sides. The kernel's array is
  `LayerSpec.layerOut` of `h` and the arguments (`KernelLayer`, over `KernelBody` and `HostPrefix`), and so is the
  reference's (`ReferenceLayer`); the two groupings of the five summands agree because addition of extended reals is
  commutative and associative, so finiteness of the inputs is not used. The three frames are the generated ones (the
  reference's its generated run with the result dropped); the idealization rewrote nothing.
-/
import proofs.«102328_j17162689314845_1_alg».proof.Defs
import proofs.«102328_j17162689314845_1_alg».proof.Proof.Gen.Kernel
import proofs.«102328_j17162689314845_1_alg».proof.Proof.Gen.Kernel.Skeleton
import proofs.«102328_j17162689314845_1_alg».proof.Proof.Gen.Kernel.Launch
import proofs.«102328_j17162689314845_1_alg».proof.Proof.Gen.Kernel.Points
import proofs.«102328_j17162689314845_1_alg».proof.Proof.Gen.Kernel.Frame
import proofs.«102328_j17162689314845_1_alg».proof.Proof.Gen.KernelIdeal
import proofs.«102328_j17162689314845_1_alg».proof.Proof.Gen.KernelIdeal.Skeleton
import proofs.«102328_j17162689314845_1_alg».proof.Proof.Gen.KernelIdeal.Launch
import proofs.«102328_j17162689314845_1_alg».proof.Proof.Gen.KernelIdeal.Points
import proofs.«102328_j17162689314845_1_alg».proof.Proof.Gen.KernelIdeal.Frame
import proofs.«102328_j17162689314845_1_alg».proof.Proof.Gen.ReferenceIdeal
import proofs.«102328_j17162689314845_1_alg».proof.Proof.Gen.Pre_finite_inputs
import proofs.«102328_j17162689314845_1_alg».proof.Proof.Gen.KernelIdeal.Value
import proofs.«102328_j17162689314845_1_alg».proof.Proof.Gen.ReferenceIdeal.Run
import proofs.«102328_j17162689314845_1_alg».proof.Proof.Gen.ReferenceIdeal.Read
import proofs.«102328_j17162689314845_1_alg».proof.Proof.KernelLayer
import proofs.«102328_j17162689314845_1_alg».proof.Proof.ReferenceLayer
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The aggregated features are one term in both programs: the same gather and scatter-add of the same arrays. -/
theorem aggregated_eq (x : FVec Ideal Cert.KernelIdeal.S100000x64 .f32) (src dst : IVec Cert.KernelIdeal.S1280000 32) :
    Cert.ReferenceIdeal.Read.val_main_v9 (F := Ideal) x src dst = Cert.KernelIdeal.HostPrefix.aggregated (F := Ideal) x src dst := rfl

/-- From arguments that agree, both programs end with the layer function of them. -/
theorem algebraic : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.reference_eq, aggregated_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.KernelIdeal.LayerValue.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
